-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg1 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v23 main_v26
  main_v27

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x64 : Shape := ⟨2, ![4000, 64]⟩
abbrev S4000x1 : Shape := ⟨2, ![4000, 1]⟩
abbrev S1600000x64 : Shape := ⟨2, ![1600000, 64]⟩
abbrev S100000x2 : Shape := ⟨2, ![100000, 2]⟩
abbrev S1x64 : Shape := ⟨2, ![1, 64]⟩
abbrev S100000x32 : Shape := ⟨2, ![100000, 32]⟩
abbrev S4000x2 : Shape := ⟨2, ![4000, 2]⟩
abbrev S4000x32 : Shape := ⟨2, ![4000, 32]⟩
abbrev S1600000x32 : Shape := ⟨2, ![1600000, 32]⟩
abbrev S1x32 : Shape := ⟨2, ![1, 32]⟩

abbrev nBuf : Space → Nat
  | .hbm => 53
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x1, .f32⟩
  | .hbm, ⟨41, _⟩ => ⟨S100000x2, .f32⟩
  | .hbm, ⟨42, _⟩ => ⟨S1x64, .f32⟩
  | .hbm, ⟨43, _⟩ => ⟨S100000x32, .f32⟩
  | .hbm, ⟨44, _⟩ => ⟨S1600000x1, .i32⟩
  | .hbm, ⟨45, _⟩ => ⟨S1600000x32, .f32⟩
  | .hbm, ⟨46, _⟩ => ⟨S_, .f32⟩
  | .hbm, ⟨47, _⟩ => ⟨S100000x32, .f32⟩
  | .hbm, ⟨48, _⟩ => ⟨S1600000x1, .i32⟩
  | .hbm, ⟨49, _⟩ => ⟨S100000x32, .f32⟩
  | .hbm, ⟨50, _⟩ => ⟨S100000x1, .f32⟩
  | .hbm, ⟨51, _⟩ => ⟨S1x32, .f32⟩
  | .hbm, ⟨52, _⟩ => ⟨S100000x32, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S64x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x2, .f32⟩
  | .local _ .vmem, ⟨10, _⟩ => ⟨S4000x2, .f32⟩
  | .local _ .vmem, ⟨11, _⟩ => ⟨S1x64, .f32⟩
  | .local _ .vmem, ⟨12, _⟩ => ⟨S64x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S4000x1, .f32⟩
  | .local _ .vmem, ⟨18, _⟩ => ⟨S4000x1, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  concatenates_S100000x1_S100000x1_S100000x2_d1 : Shape.Concatenates [S100000x1, S100000x1] S100000x2 1
  bcast_S64_S1x64_1 : S64.BroadcastsInDim S1x64 (![1] : Fin 1 → Fin S1x64.rank)
  shapeCasts_S4000x64_S4000x64 : S4000x64.ShapeCasts S4000x64
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  bcast_S32_S1x32_1 : S32.BroadcastsInDim S1x32 (![1] : Fin 1 → Fin S1x32.rank)
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S4000x1_S4000x32 : S4000x1.Broadcasts S4000x32
  broadcasts_S1x32_S4000x32 : S1x32.Broadcasts S4000x32
  scatter_S100000_S1600000x1_S1600000_n_0_0_1_wf : ScatterDims.WF S100000 S1600000x1 S1600000 [] [0] [0] 1
  dot_S4000x64_S64x64_S4000x64_1_0_0_1_n_n_wf : DotDims.WF S4000x64 S64x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x32_S4000x32_1_0_0_1_n_n_wf : DotDims.WF S4000x64 S64x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .f32 = 32 ∨ (Rect.block (s := S100000x32) S4000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S100000x32.size a
  hwx2_3 : ∀ i : grid2.Coords, EltTy.bits .f32 = 32 ∨ (Rect.block (s := S100000x32) S4000x32.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S4000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x32, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x32, .f32⟩
  | .hbm, ⟨94, _⟩ => ⟨S_, .f32⟩
  | .hbm, ⟨95, _⟩ => ⟨S100000x32, .f32⟩
  | .hbm, ⟨96, _⟩ => ⟨S1600000x1, .i32⟩
  | .hbm, ⟨97, _⟩ => ⟨S100000x32, .f32⟩
  | .hbm, ⟨98, _⟩ => ⟨S100000x1, .f32⟩
  | .hbm, ⟨99, _⟩ => ⟨S100000x32, .f32⟩
  | .hbm, ⟨100, _⟩ => ⟨S100000x32, .f32⟩
  | .hbm, ⟨101, _⟩ => ⟨S1x32, .f32⟩
  | .hbm, ⟨102, _⟩ => ⟨S100000x32, .f32⟩
  | .hbm, ⟨103, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_17 : Ref sig .tc := ⟨.hbm, 85, rfl⟩
abbrev main_v57 : Ref sig .tc := ⟨.hbm, 86, rfl⟩
abbrev main_v58 : Ref sig .tc := ⟨.hbm, 87, rfl⟩
abbrev main_c_18 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
/-
  The two-layer graph convolution that both programs compute, cut into its stages, each stage ONE
  whole-array function of the stage before it.

  Nodes 0 … 99999, edges 0 … 1599999, an edge e running from node `src e` to node `dst e`. With
  d_out(v) = max(#{e | src e = v}, 1) and d_in(v) = max(#{e | dst e = v}, 1):

    layer(x, W, b) = d_in^(-1/2) ⊙ A (d_out^(-1/2) ⊙ x · W) + b,        (A y)(v) = ∑_{e : dst e = v} y(src e)
    result         = layer(relu (layer(features, W1, b1)), W2, b2).

  Every stage below is spelt with the host operations of the reference's own program, so that the
  reference's result is the composition of the stages by unfolding, and so that the stages shared by
  both programs (the degree count, the gather of the source rows, the sum into the destination rows)
  are never opened: only the three dense stages are compared with a kernel, entry by entry.
  The gather's index array is a parameter of its own (`from_`): the reference hands it the source
  nodes with the negative ones moved up by the number of nodes, the kernel the source nodes as given.
-/
import proofs.«416032_j24352464569639_3_alg».proof.ReferenceIdeal
import proofs.«416032_j24352464569639_3_alg».proof.Proof.Gen.ReferenceIdeal

noncomputable section

namespace Cert.Gcn

open Idealize.ShloMosaic Cert.ReferenceIdeal Cert.ReferenceIdeal.Facts₀

variable {F : FTy → Type} [FloatOps F]

/-- `max(#{e | idx e = v}, 1)^(-1/2)` per node `v`: a one is added into a zero array at every
    `idx e` (an index outside 0 … 99999 adds nowhere), the count is clamped below by one, and raised to -1/2. -/
def invSqrtDeg (idx : IVec S1600000 32) : FVec F S100000 .f32 :=
  Host.powf (maximumf (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32))) (broadcastInDim S100000 ![] bcast_S_S100000 (constant S_ .f32 0x3F800000#32))) (broadcastInDim S100000 ![] bcast_S_S100000 (constant S_ .f32 0xBF000000#32))

/-- A per-node vector as a column, one row per node. -/
def column (n : FVec F S100000 .f32) : FVec F S100000x1 .f32 :=
  broadcastInDim S100000x1 ![0] bcast_S100000_S100000x1_0 n

/-- First dense stage: every row of `x` scaled by its node's entry of the column, then times `w`:
    entry (v, j) is `∑_k (x(v,k) · ncol(v,0)) · w(k,j)`. -/
def scaledProduct64 (x : FVec F S100000x64 .f32) (ncol : FVec F S100000x1 .f32) (w : FVec F S64x64 .f32) : FVec F S100000x64 .f32 :=
  Host.dotGeneral dot_S100000x64_S64x64_S100000x64_1_0_0_1_n_n none (mulf x (broadcastInDim S100000x64 ![0, 1] bcast_S100000x1_S100000x64_0_1 ncol)) w

/-- Sum over the edges into each destination row (64 columns): row `from_ e` of `h` (the index clamped
    into 0 … 99999 by the gather) is added into row `to_ e` of a zero array (an index outside adds nowhere). -/
def neighbourSum64 (h : FVec F S100000x64 .f32) (from_ to_ : IVec S1600000 32) : FVec F S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 to_) (Host.gather gather_S100000x64_S1600000x1_S1600000x64_1_0_n_n_0_1_164 h (broadcastInDim S1600000x1 ![0] bcast_S1600000_S1600000x1_0 from_))

/-- The same sum over the edges on 32 columns. -/
def neighbourSum32 (h : FVec F S100000x32 .f32) (from_ to_ : IVec S1600000 32) : FVec F S100000x32 .f32 :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 to_) (Host.gather gather_S100000x32_S1600000x1_S1600000x32_1_0_n_n_0_1_132 h (broadcastInDim S1600000x1 ![0] bcast_S1600000_S1600000x1_0 from_))

/-- A bias vector of 64 entries as one row. -/
def row64 (b : FVec F S64 .f32) : FVec F S1x64 .f32 := broadcastInDim S1x64 ![1] bcast_S64_S1x64_1 b

/-- A bias vector of 32 entries as one row. -/
def row32 (b : FVec F S32 .f32) : FVec F S1x32 .f32 := broadcastInDim S1x32 ![1] bcast_S32_S1x32_1 b

/-- Second dense stage: the first layer finished (scale each row by `incol`, add the bias row, clamp below
    by zero), each row scaled by `outcol`, then times `w`: entry (v, j) is
    `∑_k (max(a(v,k) · incol(v,0) + brow(0,k), 0) · outcol(v,0)) · w(k,j)`. -/
def reluScaledProduct32 (a : FVec F S100000x64 .f32) (incol : FVec F S100000x1 .f32) (brow : FVec F S1x64 .f32)
    (outcol : FVec F S100000x1 .f32) (w : FVec F S64x32 .f32) : FVec F S100000x32 .f32 :=
  Host.dotGeneral dot_S100000x64_S64x32_S100000x32_1_0_0_1_n_n none (mulf (maximumf (addf (mulf a (broadcastInDim S100000x64 ![0, 1] bcast_S100000x1_S100000x64_0_1 incol)) (broadcastInDim S100000x64 ![0, 1] bcast_S1x64_S100000x64_0_1 brow)) (broadcastInDim S100000x64 ![] bcast_S_S100000x64 (constant S_ .f32 0x00000000#32))) (broadcastInDim S100000x64 ![0, 1] bcast_S100000x1_S100000x64_0_1 outcol)) w

/-- Last stage: each row scaled by `incol`, plus the bias row: entry (v, j) is `a(v,j) · incol(v,0) + brow(0,j)`. -/
def scaledPlusBias32 (a : FVec F S100000x32 .f32) (incol : FVec F S100000x1 .f32) (brow : FVec F S1x32 .f32) : FVec F S100000x32 .f32 :=
  addf (mulf a (broadcastInDim S100000x32 ![0, 1] bcast_S100000x1_S100000x32_0_1 incol)) (broadcastInDim S100000x32 ![0, 1] bcast_S1x32_S100000x32_0_1 brow)

/-- The reference's reading of a source node: a negative one counts from the end (100000 is added). -/
def fromEnd (src : IVec S1600000 32) : IVec S1600000 32 :=
  select (cmpi .slt src (broadcastInDim S1600000 ![] bcast_S_S1600000 (constantI S_ 32 0#32))) (addi src (broadcastInDim S1600000 ![] bcast_S_S1600000 (constantI S_ 32 100000#32))) src

/-- The two layers, the gathers reading the rows `from_ e`. -/
def twoLayers (x : FVec F S100000x64 .f32) (src dst from_ : IVec S1600000 32) (w1 : FVec F S64x64 .f32) (b1 : FVec F S64 .f32)
    (w2 : FVec F S64x32 .f32) (b2 : FVec F S32 .f32) : FVec F S100000x32 .f32 :=
  scaledPlusBias32
    (neighbourSum32
      (reluScaledProduct32
        (neighbourSum64 (scaledProduct64 x (column (invSqrtDeg src)) w1) from_ dst)
        (column (invSqrtDeg dst)) (row64 b1) (column (invSqrtDeg src)) w2)
      from_ dst)
    (column (invSqrtDeg dst)) (row32 b2)

end Cert.Gcn

end
-- ==== Proof.RefIsSpec.lean ====
/-
  The reference's result is the two layers of `Cert.Gcn`, its gathers reading the source nodes counted
  from the end where negative: the reference's composed term is the stages' composition, operation for
  operation.
-/
import proofs.«416032_j24352464569639_3_alg».proof.Proof.Spec
import proofs.«416032_j24352464569639_3_alg».proof.Proof.Gen.ReferenceIdeal.Run

noncomputable section

namespace Cert.Gcn

open Idealize.ShloMosaic Idealize.SL.Sem Cert.ReferenceIdeal

/-- What the reference's run leaves in its result buffer, as the two layers of its argument arrays. -/
theorem reference_result {F : FTy → Type} [FloatOps F] (m : (ℓ : Loc nD τ sig) → Buf (Elt F) ℓ) (c : Dev nD) :
    Cert.ReferenceIdeal.Value.res_main_v72 m c
      = twoLayers (m ((c.tc : Thread nD τ).loc main_arg0)) (m ((c.tc : Thread nD τ).loc main_arg1)) (m ((c.tc : Thread nD τ).loc main_arg2))
          (fromEnd (m ((c.tc : Thread nD τ).loc main_arg1)))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v72 twoLayers scaledPlusBias32 neighbourSum32 reluScaledProduct32 neighbourSum64
    scaledProduct64 column invSqrtDeg row64 row32 fromEnd
  rfl

end Cert.Gcn

end
-- ==== Proof.SourceNodes.lean ====
/-
  Under the precondition every source node is non-negative, so counting a source node from the end where it is
  negative (the reference's reading of an index) changes nothing.
-/
import proofs.«416032_j24352464569639_3_alg».proof.Proof.Spec
import proofs.«416032_j24352464569639_3_alg».proof.Defs
import proofs.«416032_j24352464569639_3_alg».proof.Proof.Gen.KernelIdeal
import proofs.«416032_j24352464569639_3_alg».proof.Proof.Gen.Pre_finite_inputs
import Idealize.ShloMosaic.Lib.ValueIdx
import Idealize.ShloMosaic.Lib.ReduceAll
import Idealize.ShloMosaic.Lib.StableHlo.Predicate

noncomputable section

namespace Cert.Gcn

open Idealize.ShloMosaic Idealize.ShloMosaic.TcCoe Idealize.SL.Sem Cert.KernelIdeal

/-- The scalar shape has one index. -/
instance : Subsingleton Cert.Pre_finite_inputs.S_.Idx := ⟨fun _ _ => funext fun d => d.elim0⟩

/-- Signed "a ≥ b" as a one-bit word excludes signed "a < b": the second word is the negation of the first. -/
theorem slt_word_of_sge_word {w : Nat} {a b : BitVec w} (h : IntOp.cmpi .sge a b = 1#1) : IntOp.cmpi .slt a b = 0#1 := by
  simp only [IntOp.cmpi, StableHlo.Predicate.ofBool_eq_one_iff, BitVec.sle, decide_eq_true_eq] at h
  have hlt : a.slt b = false := by
    simp only [BitVec.slt, decide_eq_false_iff_not, not_lt]; exact h
  simp only [IntOp.cmpi, hlt]; rfl

/-- The precondition's last conjunct says every source node is ≥ 0 as a signed word; then "negative → add 100000"
    selects the node itself at every edge. -/
theorem fromEnd_of_pre (m : (ℓ : Loc nD τ sig) → Buf (Elt Ideal) ℓ) (h : Cert.Pre_KernelIdeal m) (c : Dev nD) :
    fromEnd (m ((c.tc : Thread nD τ).loc main_arg1)) = m ((c.tc : Thread nD τ).loc main_arg1) := by
  have h0 := congrFun (h c) ValueIdx.ix0
  dsimp only [Cert.Pre_finite_inputs.fn, Cert.Pre_finite_inputs.fn_part1] at h0
  -- the conjunction's last conjunct: the all-reduction of "source node ≥ 0"
  have h1 := (IntOp.andi_eq_one.1 h0).2
  funext e
  -- at the edge e the compare word "≥ 0" is 1, so the compare word "< 0" is 0 and the select keeps the node
  have h2 := Host.reduce_andi_all _ _ _ _ _ h1 e
  have h3 : IntOp.cmpi .slt (m ((c.tc : Thread nD τ).loc main_arg1) e)
      (broadcastInDim Cert.ReferenceIdeal.S1600000 ![] Cert.ReferenceIdeal.Facts₀.bcast_S_S1600000 (constantI Cert.ReferenceIdeal.S_ 32 0#32) e) = 0#1 :=
    slt_word_of_sge_word h2
  show Scalar.select (IntOp.cmpi .slt _ _) _ _ = _
  rw [h3, ValueIdx.select_zero]

end Cert.Gcn

end
-- ==== Proof.FirstDense.lean ====
/-
  The first launch (rows scaled by a column, times a 64×64 weight, 25 blocks of 4000 rows) leaves in its
  output array the first dense stage of `Cert.Gcn` of the arrays it found.

  Entry (p, q) of the block a grid point t stores is ∑_k (x0(p,k) · x1(p,0)) · x2(k,q) of the point's three
  input blocks; those blocks are rows 4000 t … 4000 t + 3999 of the feature array and of the scale column, and
  the whole weight; so the stored block is block t of the stage, whose entry (r, q) is the same sum at row
  r = 4000 t + p. The 25 blocks cover the 100000 rows, so the array ends holding the stage.
-/
import proofs.«416032_j24352464569639_3_alg».proof.Proof.Spec
import proofs.«416032_j24352464569639_3_alg».proof.Proof.Gen.KernelIdeal.Frame
import proofs.«416032_j24352464569639_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.TcCoe Idealize.SL.Sem Cert.KernelIdeal Cert.KernelIdeal.Gen

namespace FirstDense
open Idealize.ShloMosaic.ValueIdx

/-! ## The kernel's product at an entry -/

/-- The kernel's contraction reads its left operand's row from the output index, -/
theorem blockDot_lhs_row (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- its left operand's column from the contraction index, -/
theorem blockDot_lhs_col (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- its right operand's row from the contraction index, -/
theorem blockDot_rhs_row (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- and its right operand's column from the output index. -/
theorem blockDot_rhs_col (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A column of 4000 entries spread over 64 columns reads, at (p, k), the column's entry of row p. -/
theorem spreadColumn_apply (v : S4000x1.Idx → EReal) (h : S4000x1.Broadcasts S4000x64) (p : Fin 4000) (k : Fin 64) :
    broadcastTo S4000x64 v h (ix2 p k) = v (ix2 p (0 : Fin 1)) := by
  refine broadcastTo_apply v h (ix2 p k) (ix2 p (0 : Fin 1)) fun a => ?_
  match a with
  | ⟨0, _⟩ => show p.val = if (4000 : Nat) = 1 then 0 else p.val; rw [if_neg (by decide)]
  | ⟨1, _⟩ => show 0 = if (1 : Nat) = 1 then 0 else k.val; rw [if_pos rfl]

/-- Entry (p, q) of what the kernel stores: the sum over k of (x0(p,k) · x1(p,0)) · x2(k,q). -/
theorem blockProduct_apply (x0 : Vec Ideal S4000x64 .f32) (x1 : Vec Ideal S4000x1 .f32) (x2 : Vec Ideal S64x64 .f32) (p : Fin 4000) (q : Fin 64) :
    k0_pay1 (F := Ideal) x0 x1 x2 (ix2 p q) = ∑ k : Fin 64, (x0 (ix2 p k) * x1 (ix2 p (0 : Fin 1))) * x2 (ix2 k q) := by
  unfold k0_pay1
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact blockDot_lhs_row _ _
    | ⟨1, _⟩ => exact (blockDot_lhs_col _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (blockDot_rhs_row _ _).trans hk
    | ⟨1, _⟩ => exact blockDot_rhs_col _ _)
  rw [el, er, truncf_apply, truncf_apply, mulf_apply, shapeCast_self, spreadColumn_apply]

/-! ## The first dense stage at an entry -/

/-- A column of 100000 entries spread over 64 columns reads, at (r, k), the column's entry of row r. -/
theorem columnOver64_apply (ncol : FVec Ideal Cert.ReferenceIdeal.S100000x1 .f32) (r : Fin 100000) (k : Fin 64) :
    broadcastInDim Cert.ReferenceIdeal.S100000x64 ![0, 1] Cert.ReferenceIdeal.Facts₀.bcast_S100000x1_S100000x64_0_1 ncol (ix2 r k) = ncol (ix2 r (0 : Fin 1)) := by
  refine broadcastInDim_apply _ Cert.ReferenceIdeal.Facts₀.bcast_S100000x1_S100000x64_0_1 ncol (ix2 r k) (ix2 r (0 : Fin 1)) fun a => ?_
  match a with
  | ⟨0, _⟩ => show r.val = if (100000 : Nat) = 1 then 0 else r.val; rw [if_neg (by decide)]
  | ⟨1, _⟩ => show 0 = if (1 : Nat) = 1 then 0 else k.val; rw [if_pos rfl]

/-- Entry (r, q) of the first dense stage: the sum over k of (x(r,k) · ncol(r,0)) · w(k,q). -/
theorem scaledProduct64_apply (x : FVec Ideal Cert.ReferenceIdeal.S100000x64 .f32) (ncol : FVec Ideal Cert.ReferenceIdeal.S100000x1 .f32)
    (w : FVec Ideal Cert.ReferenceIdeal.S64x64 .f32) (r : Fin 100000) (q : Fin 64) :
    scaledProduct64 (F := Ideal) x ncol w (ix2 r q) = ∑ k : Fin 64, (x (ix2 r k) * ncol (ix2 r (0 : Fin 1))) * w (ix2 k q) := by
  unfold scaledProduct64
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact Cert.ReferenceIdeal.Read.lhs_main_v19_0 _ _
    | ⟨1, _⟩ => exact (Cert.ReferenceIdeal.Read.lhs_main_v19_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (Cert.ReferenceIdeal.Read.rhs_main_v19_0 _ _).trans hk
    | ⟨1, _⟩ => exact Cert.ReferenceIdeal.Read.rhs_main_v19_1 _ _)
  rw [el, er, mulf_apply, columnOver64_apply]

/-! ## The blocks of the launch -/

/-- A whole-block rectangle starts at the origin. -/
theorem origin2 : (![0, 0] : Fin 2 → Nat) = fun _ => 0 := funext fun a => by fin_cases a <;> rfl

/-- The index maps over the 25 grid points: the three row-blocked windows sit at block (t, 0), the weight at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Entry (p, k) of the feature block at point t is entry (4000 t + p, k) of the feature array. -/
theorem featureBlock_apply (t : Fin cfg0.N) (p : Fin 4000) (k : Fin 64) (r : Fin 100000) (hr : r.val = t.val * 4000 + p.val) :
    (iblk0 (F := Ideal) V c 0 t : Vec Ideal S4000x64 .f32) (ix2 p k) = (V c main_arg0 : Vec Ideal S100000x64 .f32) (ix2 r k) := by
  obtain ⟨e0, e1, -⟩ := index_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 64 + 1 * k.val = k.val; omega

/-- Entry (p, 0) of the scale block at point t is entry (4000 t + p, 0) of the scale column. -/
theorem scaleBlock_apply (t : Fin cfg0.N) (p : Fin 4000) (r : Fin 100000) (hr : r.val = t.val * 4000 + p.val) :
    (iblk0 (F := Ideal) V c 1 t : Vec Ideal S4000x1 .f32) (ix2 p (0 : Fin 1)) = (V c main_v16 : Vec Ideal S100000x1 .f32) (ix2 r (0 : Fin 1)) := by
  obtain ⟨-, -, e2, e3, -⟩ := index_facts t
  show V c main_v16 (((cfg0.win 1).blk t).view.emb (ix2 p (0 : Fin 1))) = V c main_v16 (ix2 r (0 : Fin 1))
  refine congrArg _ (funext fun a => Fin.ext ?_)
  match a with
  | ⟨0, _⟩ => show win0_1.index t (0 : Fin 2) * 4000 + 1 * p.val = r.val; omega
  | ⟨1, _⟩ => show win0_1.index t (1 : Fin 2) * 1 + 1 * 0 = 0; omega

/-- The weight block at every point is the whole weight array. -/
theorem weightBlock_apply (t : Fin cfg0.N) (k q : Fin 64) :
    (iblk0 (F := Ideal) V c 2 t : Vec Ideal S64x64 .f32) (ix2 k q) = (V c main_arg3 : Vec Ideal S64x64 .f32) (ix2 k q) := by
  obtain ⟨-, -, -, -, e4, e5, -⟩ := index_facts t
  show V c main_arg3 (((cfg0.win 2).blk t).view.emb (ix2 k q)) = V c main_arg3 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- Entry (p, q) of the output block at point t sits at (4000 t + p, q) of the output array. -/
theorem outputBlock_emb (t : Fin cfg0.N) (p : Fin 4000) (q : Fin 64) (r : Fin 100000) (hr : r.val = t.val * 4000 + p.val) :
    ((cfg0.win 3).blk t).view.emb (ix2 p q) = (ix2 r q : S100000x64.Idx) := by
  obtain ⟨-, -, -, -, -, -, e6, e7⟩ := index_facts t
  refine funext fun a => Fin.ext ?_
  match a with
  | ⟨0, _⟩ => show win0_3.index t (0 : Fin 2) * 4000 + 1 * p.val = r.val; omega
  | ⟨1, _⟩ => show win0_3.index t (1 : Fin 2) * 64 + 1 * q.val = q.val; omega

end Blocks

/-! ## From the blocks to the array -/

section Array
variable (V : (c : Dev nD) → (b : Ref sig .tc) → Buf (Elt Ideal) ((c : Thread nD τ).loc b)) (c : Dev nD)

/-- What point t writes back is block t of the first dense stage of the arrays the launch found: entry (p, q) of the
    block is the kernel's sum over k of (x(4000 t + p, k) · n(4000 t + p, 0)) · w(k, q), which is the stage's entry
    (4000 t + p, q) term by term. -/
theorem written_block (t : Fin cfg0.N) :
    (dat0 (F := Ideal) V c).flushed 3 t
      = ((cfg0.win 3).blk t).view.read (Elt Ideal) (scaledProduct64 (F := Ideal) (V c main_arg0) (V c main_v16) (V c main_arg3)) := by
  show (cfg0.win 3).cut (grid0.coords t) ((dat0 V c).after 3 t) = _
  rw [after0_3]
  unfold out0_3
  rw [View.canon_unit_zero origin2]
  simp only [View.ld_unit_zero (S := S4000x64) origin2, View.ld_unit_zero (S := S4000x1) origin2, View.ld_unit_zero (S := S64x64) origin2]
  funext y
  obtain ⟨p, q, rfl⟩ : ∃ (p : Fin 4000) (q : Fin 64), y = ix2 p q := ⟨y 0, y 1, eq_ix2 y⟩
  have ht : t.val < 25 := Nat.lt_of_lt_of_eq t.isLt (show cfg0.N = 25 from N_0)
  have hp : p.val < 4000 := p.isLt
  obtain ⟨r, hr⟩ : ∃ r : Fin 100000, r.val = t.val * 4000 + p.val := ⟨⟨t.val * 4000 + p.val, by omega⟩, rfl⟩
  show k0_pay1 (F := Ideal) (iblk0 V c 0 t) (iblk0 V c 1 t) (iblk0 V c 2 t) (ix2 p q)
    = scaledProduct64 (F := Ideal) (V c main_arg0) (V c main_v16) (V c main_arg3) (((cfg0.win 3).blk t).view.emb (ix2 p q))
  rw [outputBlock_emb t p q r hr, blockProduct_apply, scaledProduct64_apply]
  refine Finset.sum_congr rfl fun k _ => ?_
  rw [featureBlock_apply V c t p k r hr, scaleBlock_apply V c t p r hr, weightBlock_apply V c t k q]

/-- An index of the output array is in point t's block iff each coordinate is in the block's range on its axis. -/
theorem mem_outputBlock (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v17).slice (win0_3.rect t)).set ↔ _
  rw [View.set_slice_whole, Rect.mem_set_unit]
  exact Iff.rfl

/-- The 25 blocks of 4000 rows cover the output array: row r lies in the block of point r / 4000. -/
theorem rows_covered (i : S100000x64.Idx) :
    ∃ t : Fin cfg0.N, (cfg0.win 3).flush t = true ∧ i ∈ ((cfg0.win 3).blk t).view.set := by
  have h0 : (i 0).val < 100000 := (i 0).isLt
  have h1 : (i 1).val < 64 := (i 1).isLt
  obtain ⟨t, ht⟩ : ∃ t : Fin cfg0.N, t.val = (i 0).val / 4000 :=
    ⟨⟨(i 0).val / 4000, by rw [show cfg0.N = 25 from N_0]; omega⟩, rfl⟩
  refine ⟨t, flush0_3 t, ?_⟩
  rw [mem_outputBlock]
  obtain ⟨-, -, -, -, -, -, e6, e7⟩ := index_facts t
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

end Array

end FirstDense

/-- After the first launch's 25 grid points its output array is `scaledProduct64` of the three arrays it read,
    whatever the buffers held when it was entered (`V`). -/
theorem dense1_final (V : (c : Dev nD) → (b : Ref sig .tc) → Buf (Elt Ideal) ((c : Thread nD τ).loc b)) (c : Dev nD) :
    (dat0 (F := Ideal) V c).arrAt 3 cfg0.N = scaledProduct64 (F := Ideal) (V c main_arg0) (V c main_v16) (V c main_arg3) :=
  (dat0 (F := Ideal) V c).arrAt_eq_of_cover 3 (scaledProduct64 (F := Ideal) (V c main_arg0) (V c main_v16) (V c main_arg3))
    (fun t _ => FirstDense.written_block V c t) FirstDense.rows_covered

end Cert.Gcn

end
-- ==== Proof.AfterFirstLaunch.lean ====
/-
  What the idealized kernel program leaves in its result buffer: the two layers of `Cert.Gcn` of its argument
  arrays, its gathers reading the source nodes as given.

  The program is host operations, a launch, host operations, a launch, host operations, a launch. The buffers'
  contents are followed from boundary to boundary: after the first stretch the two degree scalings and the
  outgoing one as a column; after the first launch its output array is the first dense stage (FirstDense);
  the next stretch gathers its source rows and sums them into the destination rows, and sets the two
  scalings side by side as one two-column array; after the second launch its output is the second dense
  stage (SecondDense), the two columns read back apart; the third stretch gathers and sums again; the third
  launch scales and adds the bias (LastStage). A buffer no operation and no launch writes keeps its contents
  across a boundary. The host operations are the reference's own, so no gather and no sum is opened.

  This module: the first stretch and the first launch.
-/
import proofs.«416032_j24352464569639_3_alg».proof.Proof.Spec
import proofs.«416032_j24352464569639_3_alg».proof.Proof.FirstDense
import proofs.«416032_j24352464569639_3_alg».proof.Proof.Gen.KernelIdeal.Frame
import Idealize.ShloMosaic.Lib.StableHlo.Run

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The seven argument arrays as launched. -/
abbrev feat := m ((c : Thread nD τ).loc main_arg0)
abbrev srcN := m ((c : Thread nD τ).loc main_arg1)
abbrev dstN := m ((c : Thread nD τ).loc main_arg2)
abbrev wt1 := m ((c : Thread nD τ).loc main_arg3)
abbrev bs1 := m ((c : Thread nD τ).loc main_arg4)
abbrev wt2 := m ((c : Thread nD τ).loc main_arg5)
abbrev bs2 := m ((c : Thread nD τ).loc main_arg6)

/-! ## After the first stretch of host operations: the arguments as launched, the two degree scalings -/

theorem first_arg0 : W1 m ρ c (Proc.devRef .tc main_arg0) = (feat m c) := by
  show StableHlo.after hostOps0 (W0 m ρ c) (Proc.devRef .tc main_arg0) = _
  after_results
theorem first_arg1 : W1 m ρ c (Proc.devRef .tc main_arg1) = (srcN m c) := by
  show StableHlo.after hostOps0 (W0 m ρ c) (Proc.devRef .tc main_arg1) = _
  after_results
theorem first_arg2 : W1 m ρ c (Proc.devRef .tc main_arg2) = (dstN m c) := by
  show StableHlo.after hostOps0 (W0 m ρ c) (Proc.devRef .tc main_arg2) = _
  after_results
theorem first_arg3 : W1 m ρ c (Proc.devRef .tc main_arg3) = (wt1 m c) := by
  show StableHlo.after hostOps0 (W0 m ρ c) (Proc.devRef .tc main_arg3) = _
  after_results
theorem first_arg4 : W1 m ρ c (Proc.devRef .tc main_arg4) = (bs1 m c) := by
  show StableHlo.after hostOps0 (W0 m ρ c) (Proc.devRef .tc main_arg4) = _
  after_results
theorem first_arg5 : W1 m ρ c (Proc.devRef .tc main_arg5) = (wt2 m c) := by
  show StableHlo.after hostOps0 (W0 m ρ c) (Proc.devRef .tc main_arg5) = _
  after_results
theorem first_arg6 : W1 m ρ c (Proc.devRef .tc main_arg6) = (bs2 m c) := by
  show StableHlo.after hostOps0 (W0 m ρ c) (Proc.devRef .tc main_arg6) = _
  after_results

/-- The scaling by the outgoing degree, per node. -/
theorem first_outScale : W1 m ρ c (Proc.devRef .tc main_v7) = invSqrtDeg (F := Ideal) (srcN m c) := by
  show StableHlo.after hostOps0 (W0 m ρ c) (Proc.devRef .tc main_v7) = _
  after_results
  rfl
/-- The scaling by the incoming degree, per node. -/
theorem first_inScale : W1 m ρ c (Proc.devRef .tc main_v15) = invSqrtDeg (F := Ideal) (dstN m c) := by
  show StableHlo.after hostOps0 (W0 m ρ c) (Proc.devRef .tc main_v15) = _
  after_results
  rfl
/-- The outgoing scaling as a column: the first launch's second operand. -/
theorem first_outColumn : W1 m ρ c (Proc.devRef .tc main_v16) = column (F := Ideal) (invSqrtDeg (F := Ideal) (srcN m c)) := by
  show StableHlo.after hostOps0 (W0 m ρ c) (Proc.devRef .tc main_v16) = _
  after_results
  rfl

/-! ## After the first launch: its output the first dense stage, the other buffers kept -/

/-- `d_out^(-1/2) ⊙ features · W1`. -/
abbrev hidden1 : FVec Ideal Cert.ReferenceIdeal.S100000x64 .f32 :=
  scaledProduct64 (F := Ideal) (feat m c) (column (F := Ideal) (invSqrtDeg (F := Ideal) (srcN m c))) (wt1 m c)

theorem afterFirst_hidden : W2 m ρ c (Proc.devRef .tc main_v17) = hidden1 m c := by
  refine (W2_arr m ρ c 3).trans ((dense1_final (V1 m ρ) c).trans ?_)
  show scaledProduct64 (F := Ideal) (W1 m ρ c (Proc.devRef .tc main_arg0)) (W1 m ρ c (Proc.devRef .tc main_v16)) (W1 m ρ c (Proc.devRef .tc main_arg3)) = _
  rw [first_arg0, first_outColumn, first_arg3]
theorem afterFirst_arg1 : W2 m ρ c (Proc.devRef .tc main_arg1) = (srcN m c) :=
  (W2_of_ne m ρ c main_arg1 (by decide)).trans (first_arg1 m ρ c)
theorem afterFirst_arg2 : W2 m ρ c (Proc.devRef .tc main_arg2) = (dstN m c) :=
  (W2_of_ne m ρ c main_arg2 (by decide)).trans (first_arg2 m ρ c)
theorem afterFirst_arg4 : W2 m ρ c (Proc.devRef .tc main_arg4) = (bs1 m c) :=
  (W2_of_ne m ρ c main_arg4 (by decide)).trans (first_arg4 m ρ c)
theorem afterFirst_arg5 : W2 m ρ c (Proc.devRef .tc main_arg5) = (wt2 m c) :=
  (W2_of_ne m ρ c main_arg5 (by decide)).trans (first_arg5 m ρ c)
theorem afterFirst_arg6 : W2 m ρ c (Proc.devRef .tc main_arg6) = (bs2 m c) :=
  (W2_of_ne m ρ c main_arg6 (by decide)).trans (first_arg6 m ρ c)
theorem afterFirst_outScale : W2 m ρ c (Proc.devRef .tc main_v7) = invSqrtDeg (F := Ideal) (srcN m c) :=
  (W2_of_ne m ρ c main_v7 (by decide)).trans (first_outScale m ρ c)
theorem afterFirst_inScale : W2 m ρ c (Proc.devRef .tc main_v15) = invSqrtDeg (F := Ideal) (dstN m c) :=
  (W2_of_ne m ρ c main_v15 (by decide)).trans (first_inScale m ρ c)

end Cert.Gcn

end
-- ==== Proof.BeforeSecondLaunch.lean ====
/-
  The idealized kernel program's buffers between the first and the second launch: the first dense stage's source rows
  gathered and summed into the destination rows, the two degree scalings set side by side as the two columns of one
  array (and read back apart), the bias as a row; the buffers no operation writes keep their contents.
-/
import proofs.«416032_j24352464569639_3_alg».proof.Proof.AfterFirstLaunch
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the second launch: the source rows gathered and summed into the destination rows; the two scalings side by side -/

/-- `A (d_out^(-1/2) ⊙ features · W1)`: the first layer's sum over the edges. -/
abbrev summed1 : FVec Ideal Cert.ReferenceIdeal.S100000x64 .f32 :=
  neighbourSum64 (F := Ideal) (hidden1 m c) (srcN m c) (dstN m c)

theorem second_summed : W4 m ρ c (Proc.devRef .tc main_v21) = summed1 m c := by
  show StableHlo.after hostOps1_1 (StableHlo.after hostOps1 (W2 m ρ c)) (Proc.devRef .tc main_v21) = _
  after_results
  rw [afterFirst_hidden, afterFirst_arg1, afterFirst_arg2]
  rfl
/-- The incoming scaling and the outgoing scaling as the two columns of one array. -/
theorem second_scales : W4 m ρ c (Proc.devRef .tc main_v24)
    = concatenate S100000x2 1 [⟨S100000x1, column (F := Ideal) (invSqrtDeg (F := Ideal) (dstN m c))⟩, ⟨S100000x1, column (F := Ideal) (invSqrtDeg (F := Ideal) (srcN m c))⟩]
        Cert.KernelIdeal.Gen.concatenates_S100000x1_S100000x1_S100000x2_d1 := by
  show StableHlo.after hostOps1_1 (StableHlo.after hostOps1 (W2 m ρ c)) (Proc.devRef .tc main_v24) = _
  after_results
  rw [afterFirst_inScale, afterFirst_outScale]
  rfl
theorem second_bias : W4 m ρ c (Proc.devRef .tc main_v25) = row64 (F := Ideal) (bs1 m c) := by
  show StableHlo.after hostOps1_1 (StableHlo.after hostOps1 (W2 m ρ c)) (Proc.devRef .tc main_v25) = _
  after_results
  rw [afterFirst_arg4]
  rfl
theorem second_arg5 : W4 m ρ c (Proc.devRef .tc main_arg5) = wt2 m c := by
  show StableHlo.after hostOps1_1 (StableHlo.after hostOps1 (W2 m ρ c)) (Proc.devRef .tc main_arg5) = _
  after_results
  rw [afterFirst_arg5]
theorem second_arg1 : W4 m ρ c (Proc.devRef .tc main_arg1) = srcN m c := by
  show StableHlo.after hostOps1_1 (StableHlo.after hostOps1 (W2 m ρ c)) (Proc.devRef .tc main_arg1) = _
  after_results
  rw [afterFirst_arg1]
theorem second_arg2 : W4 m ρ c (Proc.devRef .tc main_arg2) = dstN m c := by
  show StableHlo.after hostOps1_1 (StableHlo.after hostOps1 (W2 m ρ c)) (Proc.devRef .tc main_arg2) = _
  after_results
  rw [afterFirst_arg2]
theorem second_arg6 : W4 m ρ c (Proc.devRef .tc main_arg6) = bs2 m c := by
  show StableHlo.after hostOps1_1 (StableHlo.after hostOps1 (W2 m ρ c)) (Proc.devRef .tc main_arg6) = _
  after_results
  rw [afterFirst_arg6]
theorem second_inScale : W4 m ρ c (Proc.devRef .tc main_v15) = invSqrtDeg (F := Ideal) (dstN m c) := by
  show StableHlo.after hostOps1_1 (StableHlo.after hostOps1 (W2 m ρ c)) (Proc.devRef .tc main_v15) = _
  after_results
  rw [afterFirst_inScale]

/-! ## Two columns set side by side, read back apart -/

/-- The first column of two columns set side by side is the first of them. -/
theorem firstColumn_sideBySide (a b : FVec Ideal S100000x1 .f32) :
    (fun i : S100000x1.Idx => concatenate S100000x2 1 [⟨S100000x1, a⟩, ⟨S100000x1, b⟩]
        Cert.KernelIdeal.Gen.concatenates_S100000x1_S100000x1_S100000x2_d1 (ValueIdx.ix2 (i 0) (0 : Fin 2))) = a := by
  funext i
  refine (concatenate_pair_apply_left (1 : Fin 2) a b _ (ValueIdx.ix2 (i 0) (0 : Fin 2)) rfl i ?_)
  intro b'
  match b' with
  | ⟨0, _⟩ => rfl
  | ⟨1, _⟩ => exact Nat.lt_one_iff.1 (i 1).isLt

/-- The second column of two columns set side by side is the second of them. -/
theorem secondColumn_sideBySide (a b : FVec Ideal S100000x1 .f32) :
    (fun i : S100000x1.Idx => concatenate S100000x2 1 [⟨S100000x1, a⟩, ⟨S100000x1, b⟩]
        Cert.KernelIdeal.Gen.concatenates_S100000x1_S100000x1_S100000x2_d1 (ValueIdx.ix2 (i 0) (1 : Fin 2))) = b := by
  funext i
  refine (concatenate_pair_apply_right (1 : Fin 2) a b _ (ValueIdx.ix2 (i 0) (1 : Fin 2)) rfl rfl i ?_ ?_)
  · intro b' hb'
    match b', hb' with
    | ⟨0, _⟩, _ => rfl
    | ⟨1, _⟩, h => exact absurd rfl h
  · show (i 1).val + 1 = 1
    have := (i 1).isLt
    have h1 : (i 1).val < 1 := this
    omega

end Cert.Gcn

end
-- ==== Proof.SecondDense.lean ====
/-
  The second launch (finish the first layer row by row, scale, times a 64×32 weight, 25 blocks of 4000 rows)
  leaves in its output array the second dense stage of `Cert.Gcn` of the arrays it found; its two scaling
  columns arrive side by side as the two columns of one 100000×2 array.
-/
import proofs.«416032_j24352464569639_3_alg».proof.Proof.Spec
import proofs.«416032_j24352464569639_3_alg».proof.Proof.Gen.KernelIdeal.Frame
import proofs.«416032_j24352464569639_3_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.TcCoe Idealize.SL.Sem Cert.KernelIdeal Cert.KernelIdeal.Gen
open Idealize.ShloMosaic.ValueIdx (ix2 eq_ix2)

/-! ## The two products at an entry -/

/-- The reference's 100000×64 by 64×32 product at entry (i, q): the sum over k of left (i, k) times right (k, q). -/
theorem hostProduct32_apply (y : FVec Ideal S100000x64 .f32) (w : FVec Ideal S64x32 .f32) (i : Fin 100000) (q : Fin 32) :
    Host.dotGeneral (F := Ideal) Cert.ReferenceIdeal.dot_S100000x64_S64x32_S100000x32_1_0_0_1_n_n none y w (ix2 i q)
      = ∑ k : Fin 64, y (ix2 i k) * w (ix2 k q) := by
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ix2 i q) ((ValueIdx.contrEquiv1 Cert.ReferenceIdeal.dot_S100000x64_S64x32_S100000x32_1_0_0_1_n_n 64 rfl rfl).symm k) = ix2 i k := funext fun a => Fin.ext (by
    match a with
    | ⟨0, _⟩ => exact Cert.ReferenceIdeal.Read.lhs_main_v56_0 _ _
    | ⟨1, _⟩ => exact (Cert.ReferenceIdeal.Read.lhs_main_v56_1 _ _).trans hk)
  have er : Cert.ReferenceIdeal.dot_S100000x64_S64x32_S100000x32_1_0_0_1_n_n.rhsIdx (ix2 i q) ((ValueIdx.contrEquiv1 Cert.ReferenceIdeal.dot_S100000x64_S64x32_S100000x32_1_0_0_1_n_n 64 rfl rfl).symm k) = ix2 k q := funext fun a => Fin.ext (by
    match a with
    | ⟨0, _⟩ => exact (Cert.ReferenceIdeal.Read.rhs_main_v56_0 _ _).trans hk
    | ⟨1, _⟩ => exact Cert.ReferenceIdeal.Read.rhs_main_v56_1 _ _)
  rw [el, er]

/-- The block product's left index on the row axis is the output's row. -/
theorem blockProduct_lhs_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
/-- The block product's left index on the column axis is the contracted coordinate. -/
theorem blockProduct_lhs_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
/-- The block product's right index on the row axis is the contracted coordinate. -/
theorem blockProduct_rhs_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
/-- The block product's right index on the column axis is the output's column. -/
theorem blockProduct_rhs_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The kernel's 4000×64 by 64×32 block product into a zero accumulator at entry (p, q): the same sum. -/
theorem blockProduct32_apply {φ₁ φ₂ : FTy} (y : FVec Ideal S4000x64 φ₁) (w : FVec Ideal S64x32 φ₂) (p : Fin 4000) (q : Fin 32) :
    matmul (F := Ideal) dot_S4000x64_S64x32_S4000x32_1_0_0_1_n_n none y w (constant S4000x32 .f32 0x00000000#32) (ix2 p q)
      = ∑ k : Fin 64, y (ix2 p k) * w (ix2 k q) := by
  simp only [matmul]
  rw [Ideal.matmul_constant_zero_apply, ← Equiv.sum_comp (ValueIdx.contrEquiv1 dot_S4000x64_S64x32_S4000x32_1_0_0_1_n_n 64 rfl rfl).symm]
  refine Finset.sum_congr rfl fun k _ => ?_
  have hk := ValueIdx.contrEquiv1_symm_val dot_S4000x64_S64x32_S4000x32_1_0_0_1_n_n 64 rfl rfl k
  have el : dot_S4000x64_S64x32_S4000x32_1_0_0_1_n_n.lhsIdx (ix2 p q) ((ValueIdx.contrEquiv1 dot_S4000x64_S64x32_S4000x32_1_0_0_1_n_n 64 rfl rfl).symm k) = ix2 p k := funext fun a => Fin.ext (by
    match a with
    | ⟨0, _⟩ => exact blockProduct_lhs_0 _ _
    | ⟨1, _⟩ => exact (blockProduct_lhs_1 _ _).trans hk)
  have er : dot_S4000x64_S64x32_S4000x32_1_0_0_1_n_n.rhsIdx (ix2 p q) ((ValueIdx.contrEquiv1 dot_S4000x64_S64x32_S4000x32_1_0_0_1_n_n 64 rfl rfl).symm k) = ix2 k q := funext fun a => Fin.ext (by
    match a with
    | ⟨0, _⟩ => exact (blockProduct_rhs_0 _ _).trans hk
    | ⟨1, _⟩ => exact blockProduct_rhs_1 _ _)
  rw [el, er]

/-! ## Columns, the bias row and the zero, spread over a matrix -/

/-- A column [a, 1] spread over [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reference's column [a, 1] placed on both axes of [a, b] reads, at (p, c), the column's entry of row p. -/
theorem broadcastInDim_a1_ab_apply {α : Type} {a b : ℕ} (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The reference's row [1, b] placed on both axes of [a, b] reads, at (p, c), the row's entry of column c. -/
theorem broadcastInDim_1b_ab_apply {α : Type} {a b : ℕ} (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## The second dense stage and the kernel's block payload, at an entry -/

/-- Entry (i, q) of the second dense stage: the sum over k of
    (max(a(i,k) · incol(i,0) + brow(0,k), 0) · outcol(i,0)) · w(k,q). -/
theorem reluScaledProduct32_apply (a : FVec Ideal S100000x64 .f32) (incol : FVec Ideal S100000x1 .f32) (brow : FVec Ideal S1x64 .f32)
    (outcol : FVec Ideal S100000x1 .f32) (w : FVec Ideal S64x32 .f32) (i : Fin 100000) (q : Fin 32) :
    reluScaledProduct32 (F := Ideal) a incol brow outcol w (ix2 i q)
      = ∑ k : Fin 64, (max (a (ix2 i k) * incol (ix2 i (0 : Fin 1)) + brow (ix2 (0 : Fin 1) k)) (Ideal.ofBits .f32 0x00000000#32)
          * outcol (ix2 i (0 : Fin 1))) * w (ix2 k q) := by
  unfold reluScaledProduct32
  rw [hostProduct32_apply]
  refine Finset.sum_congr rfl fun k _ => ?_
  have hcol : ∀ v : FVec Ideal S100000x1 .f32,
      broadcastInDim Cert.ReferenceIdeal.S100000x64 ![0, 1] Cert.ReferenceIdeal.Facts₀.bcast_S100000x1_S100000x64_0_1 v (ix2 i k) = v (ix2 i (0 : Fin 1)) :=
    fun v => broadcastInDim_a1_ab_apply _ v i k
  have hrow : broadcastInDim Cert.ReferenceIdeal.S100000x64 ![0, 1] Cert.ReferenceIdeal.Facts₀.bcast_S1x64_S100000x64_0_1 brow (ix2 i k) = brow (ix2 (0 : Fin 1) k) :=
    broadcastInDim_1b_ab_apply _ brow i k
  simp only [ValueIdx.mulf_apply, ValueIdx.maximumf_apply, ValueIdx.addf_apply]
  rw [hcol incol, hcol outcol, hrow]
  rfl

/-- Entry (p, q) of the block the kernel stores: the same sum over the loaded blocks, the incoming scale in
    column 0 and the outgoing scale in column 1 of the two-column block. -/
theorem secondDensePayload_apply (x0 : Vec Ideal S4000x64 .f32) (x1 : Vec Ideal S4000x2 .f32) (x2 : Vec Ideal S1x64 .f32)
    (x3 : Vec Ideal S64x32 .f32) (p : Fin 4000) (q : Fin 32) :
    k1_pay1 (F := Ideal) x0 x1 x2 x3 (ix2 p q)
      = ∑ k : Fin 64, (max (x0 (ix2 p k) * x1 (ix2 p (0 : Fin 2)) + x2 (ix2 (0 : Fin 1) k)) (Ideal.ofBits .f32 0x00000000#32)
          * x1 (ix2 p (1 : Fin 2))) * x3 (ix2 k q) := by
  unfold k1_pay1
  simp only [shapeCast_self]
  rw [blockProduct32_apply]
  refine Finset.sum_congr rfl fun k _ => ?_
  simp only [ValueIdx.truncf_apply, ValueIdx.mulf_apply, ValueIdx.maximumf_apply, ValueIdx.addf_apply, ValueIdx.broadcast_apply,
    broadcastTo_a1_ab_apply, ValueIdx.broadcastTo_1b_ab_apply]
  rw [ValueIdx.slice2_axis1_apply 0 x1 _ p (0 : Fin 1) (0 : Fin 2) rfl, ValueIdx.slice2_axis1_apply 1 x1 _ p (0 : Fin 1) (1 : Fin 2) rfl]
  rfl

/-! ## The blocks of the 25 grid points -/

/-- A whole-block access starts at offset zero on both axes. -/
theorem zeroOffsets : (![0, 0] : Fin 2 → Nat) = fun _ => 0 := funext fun a => by fin_cases a <;> rfl

/-- The windows' index maps, decided over the 25 points: a row-blocked window (the summed rows, the two scaling
    columns, the output) sits at block (t, 0), a whole-array window (the bias row, the weight) at block (0, 0). -/
theorem blockIndex_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 4000·t + p of the array. -/
def blockRow (t : Fin cfg1.N) (p : Fin 4000) : Fin 100000 :=
  ⟨4000 * t.val + p.val, by have h : t.val < 25 := lt_of_lt_of_eq t.isLt N_1; have := p.isLt; omega⟩

section Blocks
variable (V : (c : Dev nD) → (b : Ref sig .tc) → Buf (Elt Ideal) ((c : Thread nD τ).loc b)) (c : Dev nD)

/-- The block of summed rows at point t, entry (p, k): row 4000·t + p, column k of the array. -/
theorem rowsBlock_apply (t : Fin cfg1.N) (p : Fin 4000) (k : Fin 64) :
    iblk1 (F := Ideal) V c 0 t (ix2 p k) = V c main_v21 (ix2 (blockRow t p) k) := by
  show V c main_v21 (((cfg1.win 0).blk t).view.emb (ix2 p k)) = V c main_v21 (ix2 (blockRow t p) k)
  refine congrArg _ (funext fun a => Fin.ext ?_)
  obtain ⟨e0, e1, -⟩ := blockIndex_facts t
  match a with
  | ⟨0, _⟩ => show win1_0.index t (0 : Fin 2) * 4000 + 1 * p.val = 4000 * t.val + p.val; omega
  | ⟨1, _⟩ => show win1_0.index t (1 : Fin 2) * 64 + 1 * k.val = k.val; omega

/-- The block of the two scaling columns at point t, entry (p, s): row 4000·t + p, column s of the array. -/
theorem scalesBlock_apply (t : Fin cfg1.N) (p : Fin 4000) (s : Fin 2) :
    iblk1 (F := Ideal) V c 1 t (ix2 p s) = V c main_v24 (ix2 (blockRow t p) s) := by
  show V c main_v24 (((cfg1.win 1).blk t).view.emb (ix2 p s)) = V c main_v24 (ix2 (blockRow t p) s)
  refine congrArg _ (funext fun a => Fin.ext ?_)
  obtain ⟨-, -, e0, e1, -⟩ := blockIndex_facts t
  match a with
  | ⟨0, _⟩ => show win1_1.index t (0 : Fin 2) * 4000 + 1 * p.val = 4000 * t.val + p.val; omega
  | ⟨1, _⟩ => show win1_1.index t (1 : Fin 2) * 2 + 1 * s.val = s.val; omega

/-- The bias row's block at any point is the whole row. -/
theorem biasBlock_apply (t : Fin cfg1.N) (z : Fin 1) (k : Fin 64) :
    iblk1 (F := Ideal) V c 2 t (ix2 z k) = V c main_v25 (ix2 z k) := by
  show V c main_v25 (((cfg1.win 2).blk t).view.emb (ix2 z k)) = V c main_v25 (ix2 z k)
  refine congrArg _ (funext fun a => Fin.ext ?_)
  obtain ⟨-, -, -, -, e0, e1, -⟩ := blockIndex_facts t
  match a with
  | ⟨0, _⟩ => show win1_2.index t (0 : Fin 2) * 1 + 1 * z.val = z.val; omega
  | ⟨1, _⟩ => show win1_2.index t (1 : Fin 2) * 64 + 1 * k.val = k.val; omega

/-- The weight's block at any point is the whole weight. -/
theorem weightBlock_apply (t : Fin cfg1.N) (k : Fin 64) (q : Fin 32) :
    iblk1 (F := Ideal) V c 3 t (ix2 k q) = V c main_arg5 (ix2 k q) := by
  show V c main_arg5 (((cfg1.win 3).blk t).view.emb (ix2 k q)) = V c main_arg5 (ix2 k q)
  refine congrArg _ (funext fun a => Fin.ext ?_)
  obtain ⟨-, -, -, -, -, -, e0, e1, -⟩ := blockIndex_facts t
  match a with
  | ⟨0, _⟩ => show win1_3.index t (0 : Fin 2) * 64 + 1 * k.val = k.val; omega
  | ⟨1, _⟩ => show win1_3.index t (1 : Fin 2) * 32 + 1 * q.val = q.val; omega

/-- Entry (p, q) of the output's block at point t is entry (4000·t + p, q) of the array. -/
theorem outBlock_emb (t : Fin cfg1.N) (p : Fin 4000) (q : Fin 32) :
    ((cfg1.win 4).blk t).view.emb (ix2 p q) = ix2 (blockRow t p) q := by
  refine funext fun a => Fin.ext ?_
  obtain ⟨-, -, -, -, -, -, -, -, e0, e1⟩ := blockIndex_facts t
  match a with
  | ⟨0, _⟩ => show win1_4.index t (0 : Fin 2) * 4000 + 1 * p.val = 4000 * t.val + p.val; omega
  | ⟨1, _⟩ => show win1_4.index t (1 : Fin 2) * 32 + 1 * q.val = q.val; omega

/-- The second dense stage of the arrays the launch reads. -/
abbrev stageOfArrays : FVec Ideal S100000x32 .f32 :=
  reluScaledProduct32 (F := Ideal) (V c main_v21)
    (fun i => V c main_v24 (ix2 (i 0) (0 : Fin 2))) (V c main_v25)
    (fun i => V c main_v24 (ix2 (i 0) (1 : Fin 2))) (V c main_arg5)

/-- What point t writes back is block t of the second dense stage of the arrays. -/
theorem flushed_eq_stageBlock (t : Fin cfg1.N) :
    (dat1 (F := Ideal) V c).flushed 4 t = ((cfg1.win 4).blk t).view.read (Elt Ideal) (stageOfArrays V c) := by
  show (cfg1.win 4).cut (grid1.coords t) ((dat1 V c).after 4 t) = _
  rw [after1_4]
  unfold out1_4
  rw [View.canon_unit_zero zeroOffsets]
  simp only [View.ld_unit_zero (S := S4000x64) zeroOffsets, View.ld_unit_zero (S := S4000x2) zeroOffsets,
    View.ld_unit_zero (S := S1x64) zeroOffsets, View.ld_unit_zero (S := S64x32) zeroOffsets]
  funext j
  obtain ⟨p, q, rfl⟩ : ∃ (p : Fin 4000) (q : Fin 32), j = ix2 p q := ⟨j 0, j 1, eq_ix2 j⟩
  show k1_pay1 (F := Ideal) (iblk1 V c 0 t) (iblk1 V c 1 t) (iblk1 V c 2 t) (iblk1 V c 3 t) (ix2 p q)
    = stageOfArrays V c (((cfg1.win 4).blk t).view.emb (ix2 p q))
  rw [outBlock_emb, secondDensePayload_apply]
  unfold stageOfArrays
  rw [reluScaledProduct32_apply]
  refine Finset.sum_congr rfl fun k _ => ?_
  rw [rowsBlock_apply, scalesBlock_apply, scalesBlock_apply, biasBlock_apply, weightBlock_apply]

end Blocks

/-! ## The 25 blocks cover the array -/

/-- An entry of the array is in point t's block iff each coordinate is in the block's range on its axis. -/
theorem mem_outBlock (t : Fin cfg1.N) (i : S100000x32.Idx) :
    i ∈ ((cfg1.win 4).blk t).view.set ↔ ∀ a : Fin 2, win1_4.index t a * S4000x32.size a ≤ (i a).val ∧ (i a).val < win1_4.index t a * S4000x32.size a + S4000x32.size a := by
  show i ∈ ((View.whole main_v26).slice (win1_4.rect t)).set ↔ _
  rw [View.set_slice_whole, Rect.mem_set_unit]
  exact Iff.rfl

/-- Row r lies in the block of point r / 4000, which writes back like every point. -/
theorem outBlocks_cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : grid1.N = 25 := N_1
  have hlt : (i 0).val / 4000 < cfg1.N := by show (i 0).val / 4000 < grid1.N; omega
  obtain ⟨-, -, -, -, -, -, -, -, e0, e1⟩ := blockIndex_facts ⟨(i 0).val / 4000, hlt⟩
  refine ⟨⟨(i 0).val / 4000, hlt⟩, flush1_4 _, ?_⟩
  rw [mem_outBlock]
  intro a
  match a with
  | ⟨0, _⟩ =>
    show win1_4.index ⟨(i 0).val / 4000, hlt⟩ (0 : Fin 2) * 4000 ≤ (i 0).val ∧ (i 0).val < win1_4.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, hlt⟩ (1 : Fin 2) * 32 ≤ (i 1).val ∧ (i 1).val < win1_4.index ⟨(i 0).val / 4000, hlt⟩ (1 : Fin 2) * 32 + 32
    rw [e1]; omega

/-- After the second launch's 25 grid points its output array is `reluScaledProduct32` of the arrays it read,
    the incoming scale the first column and the outgoing scale the second column of its two-column operand. -/
theorem dense2_final (V : (c : Dev nD) → (b : Ref sig .tc) → Buf (Elt Ideal) ((c : Thread nD τ).loc b)) (c : Dev nD) :
    (dat1 (F := Ideal) V c).arrAt 4 cfg1.N
      = reluScaledProduct32 (F := Ideal) (V c main_v21)
          (fun i => V c main_v24 (Idealize.ShloMosaic.ValueIdx.ix2 (i 0) (0 : Fin 2))) (V c main_v25)
          (fun i => V c main_v24 (Idealize.ShloMosaic.ValueIdx.ix2 (i 0) (1 : Fin 2))) (V c main_arg5) :=
  (dat1 (F := Ideal) V c).arrAt_eq_of_cover 4 (stageOfArrays V c) (fun t _ => flushed_eq_stageBlock V c t) outBlocks_cover

end Cert.Gcn

end
-- ==== Proof.AfterSecondLaunch.lean ====
/-
  The idealized kernel program's buffers after the second launch (its output the second dense stage of the arrays it
  read, the two scaling columns read back apart) and before the third: gathered and summed again, the incoming scaling
  as a column, the second bias as a row.
-/
import proofs.«416032_j24352464569639_3_alg».proof.Proof.BeforeSecondLaunch
import proofs.«416032_j24352464569639_3_alg».proof.Proof.SecondDense

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)
/-! ## After the second launch: its output the second dense stage -/

/-- `d_out^(-1/2) ⊙ relu(d_in^(-1/2) ⊙ A(…) + b1) · W2`. -/
abbrev hidden2 : FVec Ideal Cert.ReferenceIdeal.S100000x32 .f32 :=
  reluScaledProduct32 (F := Ideal) (summed1 m c) (column (F := Ideal) (invSqrtDeg (F := Ideal) (dstN m c))) (row64 (F := Ideal) (bs1 m c))
    (column (F := Ideal) (invSqrtDeg (F := Ideal) (srcN m c))) (wt2 m c)

theorem afterSecond_hidden : W5 m ρ c (Proc.devRef .tc main_v26) = hidden2 m c := by
  refine (W5_arr m ρ c 4).trans ((dense2_final (V4 m ρ) c).trans ?_)
  show reluScaledProduct32 (F := Ideal) (W4 m ρ c (Proc.devRef .tc main_v21))
      (fun i => W4 m ρ c (Proc.devRef .tc main_v24) (ValueIdx.ix2 (i 0) (0 : Fin 2))) (W4 m ρ c (Proc.devRef .tc main_v25))
      (fun i => W4 m ρ c (Proc.devRef .tc main_v24) (ValueIdx.ix2 (i 0) (1 : Fin 2))) (W4 m ρ c (Proc.devRef .tc main_arg5)) = _
  rw [second_summed, second_scales, second_bias, second_arg5, firstColumn_sideBySide, secondColumn_sideBySide]
theorem afterSecond_arg1 : W5 m ρ c (Proc.devRef .tc main_arg1) = srcN m c :=
  (W5_of_ne m ρ c main_arg1 (by decide)).trans (second_arg1 m ρ c)
theorem afterSecond_arg2 : W5 m ρ c (Proc.devRef .tc main_arg2) = dstN m c :=
  (W5_of_ne m ρ c main_arg2 (by decide)).trans (second_arg2 m ρ c)
theorem afterSecond_arg6 : W5 m ρ c (Proc.devRef .tc main_arg6) = bs2 m c :=
  (W5_of_ne m ρ c main_arg6 (by decide)).trans (second_arg6 m ρ c)
theorem afterSecond_inScale : W5 m ρ c (Proc.devRef .tc main_v15) = invSqrtDeg (F := Ideal) (dstN m c) :=
  (W5_of_ne m ρ c main_v15 (by decide)).trans (second_inScale m ρ c)

/-! ## Before the third launch: gathered and summed again -/

/-- The third stretch of host operations from ANY contents `Wv`: the gathered and summed rows. -/
theorem thirdStretch_summed (Wv : Valuation τ sig (Elt Ideal)) :
    StableHlo.after (hostOps2_1 (F := Ideal)) (StableHlo.after (hostOps2 (F := Ideal)) Wv) (Proc.devRef .tc main_v30)
      = neighbourSum32 (F := Ideal) (Wv (Proc.devRef .tc main_v26)) (Wv (Proc.devRef .tc main_arg1)) (Wv (Proc.devRef .tc main_arg2)) := by
  after_results
  rfl
/-- The third stretch from any contents: the incoming scaling as a column. -/
theorem thirdStretch_inColumn (Wv : Valuation τ sig (Elt Ideal)) :
    StableHlo.after (hostOps2_1 (F := Ideal)) (StableHlo.after (hostOps2 (F := Ideal)) Wv) (Proc.devRef .tc main_v31)
      = column (F := Ideal) (Wv (Proc.devRef .tc main_v15)) := by
  after_results
  rfl
/-- The third stretch from any contents: the second bias as a row. -/
theorem thirdStretch_bias (Wv : Valuation τ sig (Elt Ideal)) :
    StableHlo.after (hostOps2_1 (F := Ideal)) (StableHlo.after (hostOps2 (F := Ideal)) Wv) (Proc.devRef .tc main_v32)
      = row32 (F := Ideal) (Wv (Proc.devRef .tc main_arg6)) := by
  after_results
  rfl

theorem third_summed : W7 m ρ c (Proc.devRef .tc main_v30) = neighbourSum32 (F := Ideal) (hidden2 m c) (srcN m c) (dstN m c) := by
  refine (thirdStretch_summed (W5 m ρ c)).trans ?_
  rw [afterSecond_hidden, afterSecond_arg1, afterSecond_arg2]
theorem third_inColumn : W7 m ρ c (Proc.devRef .tc main_v31) = column (F := Ideal) (invSqrtDeg (F := Ideal) (dstN m c)) := by
  refine (thirdStretch_inColumn (W5 m ρ c)).trans ?_
  rw [afterSecond_inScale]
theorem third_bias : W7 m ρ c (Proc.devRef .tc main_v32) = row32 (F := Ideal) (bs2 m c) := by
  refine (thirdStretch_bias (W5 m ρ c)).trans ?_
  rw [afterSecond_arg6]

end Cert.Gcn

end
-- ==== Proof.LastStage.lean ====
/-
  The third launch (scale each row, add the bias row, 25 blocks of 4000 rows) leaves in its output array the
  last stage of `Cert.Gcn` of the arrays it found.
-/
import proofs.«416032_j24352464569639_3_alg».proof.Proof.Spec
import proofs.«416032_j24352464569639_3_alg».proof.Proof.Gen.KernelIdeal.Frame
import Idealize.ShloMosaic.Lib.ValueIdx
import Idealize.ShloMosaic.Lib.Pipeline.Value

noncomputable section

namespace Cert.Gcn

open Idealize.ShloMosaic Idealize.ShloMosaic.TcCoe Idealize.SL.Sem Cert.KernelIdeal Cert.KernelIdeal.Gen

open Idealize.ShloMosaic.ValueIdx

namespace LastStage

/-! ## The two sides at one entry -/

/-- The offsets of a whole-block access, as the constant function. -/
theorem zeroOffsets : (![0, 0] : Fin 2 → Nat) = fun _ => 0 := funext fun a => by fin_cases a <;> rfl

/-- The block's result at entry (p, q): the block of the array times the column's entry of row p, plus the bias
    row's entry q. -/
theorem payload_apply (x0 : Vec Ideal S4000x32 .f32) (x1 : Vec Ideal S4000x1 .f32) (x2 : Vec Ideal S1x32 .f32)
    (p : Fin 4000) (q : Fin 32) :
    k2_pay1 x0 x1 x2 (ix2 p q) = x0 (ix2 p q) * x1 (ix2 p (0 : Fin 1)) + x2 (ix2 (0 : Fin 1) q) := by
  unfold k2_pay1
  simp only [shapeCast_self]
  rw [addf_apply, mulf_apply,
    broadcastTo_apply x1 broadcasts_S4000x1_S4000x32 (ix2 p q) (ix2 p (0 : Fin 1))
      (fun a => by match a with | ⟨0, _⟩ => rfl | ⟨1, _⟩ => rfl),
    broadcastTo_apply x2 broadcasts_S1x32_S4000x32 (ix2 p q) (ix2 (0 : Fin 1) q)
      (fun a => by match a with | ⟨0, _⟩ => rfl | ⟨1, _⟩ => rfl)]

/-- The last stage at entry (r, q): a(r, q) · incol(r, 0) + brow(0, q). -/
theorem scaledPlusBias32_apply (a : FVec Ideal S100000x32 .f32) (incol : FVec Ideal S100000x1 .f32)
    (brow : FVec Ideal S1x32 .f32) (r : Fin 100000) (q : Fin 32) :
    scaledPlusBias32 a incol brow (ix2 r q) = a (ix2 r q) * incol (ix2 r (0 : Fin 1)) + brow (ix2 (0 : Fin 1) q) := by
  unfold scaledPlusBias32
  rw [addf_apply, mulf_apply,
    broadcastInDim_apply _ _ incol (ix2 r q) (ix2 r (0 : Fin 1))
      (fun a => by match a with | ⟨0, _⟩ => rfl | ⟨1, _⟩ => rfl),
    broadcastInDim_apply _ _ brow (ix2 r q) (ix2 (0 : Fin 1) q)
      (fun a => by match a with | ⟨0, _⟩ => rfl | ⟨1, _⟩ => rfl)]

/-! ## Where the blocks lie -/

/-- At grid point t the three row-blocked windows are at block (t, 0), the bias row's at block (0, 0): decided
    over the 25 points. -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- There are 25 grid points. -/
theorem point_lt (t : Fin cfg2.N) : t.val < 25 := lt_of_lt_of_eq t.isLt N_2

/-- Row p of block t is row 4000 t + p of the array. -/
abbrev rowAt (t : Fin cfg2.N) (p : Fin 4000) : Fin 100000 :=
  ⟨t.val * 4000 + p.val, by have := point_lt t; have := p.isLt; omega⟩

section Blocks
variable (V : (c : Dev nD) → (b : Ref sig .tc) → Buf (Elt Ideal) ((c : Thread nD τ).loc b)) (c : Dev nD)

/-- The first window's block at point t, entry (p, q), is the array's entry (4000 t + p, q). -/
theorem block0_apply (t : Fin cfg2.N) (p : Fin 4000) (q : Fin 32) :
    iblk2 (F := Ideal) V c 0 t (ix2 p q) = V c main_v30 (ix2 (rowAt t p) q) := by
  show V c main_v30 (((cfg2.win 0).blk t).view.emb (ix2 p q)) = V c main_v30 (ix2 (rowAt t p) q)
  refine congrArg _ (funext fun a => Fin.ext ?_)
  obtain ⟨e0, e1, -⟩ := blockIndices t
  match a with
  | ⟨0, _⟩ => show win2_0.index t (0 : Fin 2) * 4000 + 1 * p.val = t.val * 4000 + p.val; omega
  | ⟨1, _⟩ => show win2_0.index t (1 : Fin 2) * 32 + 1 * q.val = q.val; omega

/-- The column window's block at point t, entry (p, 0), is the column's entry (4000 t + p, 0). -/
theorem block1_apply (t : Fin cfg2.N) (p : Fin 4000) (z : Fin 1) :
    iblk2 (F := Ideal) V c 1 t (ix2 p z) = V c main_v31 (ix2 (rowAt t p) z) := by
  show V c main_v31 (((cfg2.win 1).blk t).view.emb (ix2 p z)) = V c main_v31 (ix2 (rowAt t p) z)
  refine congrArg _ (funext fun a => Fin.ext ?_)
  obtain ⟨-, -, e2, e3, -⟩ := blockIndices t
  match a with
  | ⟨0, _⟩ => show win2_1.index t (0 : Fin 2) * 4000 + 1 * p.val = t.val * 4000 + p.val; omega
  | ⟨1, _⟩ => show win2_1.index t (1 : Fin 2) * 1 + 1 * z.val = z.val; omega

/-- The bias row's window holds the whole row at every point. -/
theorem block2_apply (t : Fin cfg2.N) (z : Fin 1) (q : Fin 32) :
    iblk2 (F := Ideal) V c 2 t (ix2 z q) = V c main_v32 (ix2 z q) := by
  show V c main_v32 (((cfg2.win 2).blk t).view.emb (ix2 z q)) = V c main_v32 (ix2 z q)
  refine congrArg _ (funext fun a => Fin.ext ?_)
  obtain ⟨-, -, -, -, e4, e5, -⟩ := blockIndices t
  match a with
  | ⟨0, _⟩ => show win2_2.index t (0 : Fin 2) * 1 + 1 * z.val = z.val; omega
  | ⟨1, _⟩ => show win2_2.index t (1 : Fin 2) * 32 + 1 * q.val = q.val; omega

/-- Entry (p, q) of the output's block at point t sits at the array's index (4000 t + p, q). -/
theorem out_emb (t : Fin cfg2.N) (p : Fin 4000) (q : Fin 32) :
    ((cfg2.win 3).blk t).view.emb (ix2 p q) = ix2 (rowAt t p) q := by
  refine funext fun a => Fin.ext ?_
  obtain ⟨-, -, -, -, -, -, e6, e7⟩ := blockIndices t
  match a with
  | ⟨0, _⟩ => show win2_3.index t (0 : Fin 2) * 4000 + 1 * p.val = t.val * 4000 + p.val; omega
  | ⟨1, _⟩ => show win2_3.index t (1 : Fin 2) * 32 + 1 * q.val = q.val; omega

/-! ## What a point writes back, and the cover -/

/-- At point t the block's result at (p, q) is the last stage of the three arrays at (4000 t + p, q): the two
    sides agree term by term. -/
theorem block_value (t : Fin cfg2.N) (p : Fin 4000) (q : Fin 32) :
    k2_pay1 (iblk2 (F := Ideal) V c 0 t) (iblk2 V c 1 t) (iblk2 V c 2 t) (ix2 p q)
      = scaledPlusBias32 (F := Ideal) (V c main_v30) (V c main_v31) (V c main_v32) (ix2 (rowAt t p) q) := by
  rw [payload_apply, scaledPlusBias32_apply, block0_apply, block1_apply, block2_apply]

/-- What point t writes back is block t of the last stage of the three arrays. -/
theorem flushed_block (t : Fin cfg2.N) :
    (dat2 (F := Ideal) V c).flushed 3 t
      = ((cfg2.win 3).blk t).view.read (Elt Ideal) (scaledPlusBias32 (F := Ideal) (V c main_v30) (V c main_v31) (V c main_v32)) := by
  show (cfg2.win 3).cut (grid2.coords t) ((dat2 V c).after 3 t) = _
  rw [after2_3]
  unfold out2_3
  rw [View.canon_unit_zero zeroOffsets]
  simp only [View.ld_unit_zero (S := S4000x32) zeroOffsets, View.ld_unit_zero (S := S4000x1) zeroOffsets,
    View.ld_unit_zero (S := S1x32) zeroOffsets]
  refine funext fun (j : S4000x32.Idx) => ?_
  obtain ⟨p, q, rfl⟩ : ∃ (p : Fin 4000) (q : Fin 32), j = ix2 p q := ⟨j 0, j 1, eq_ix2 j⟩
  show k2_pay1 (iblk2 V c 0 t) (iblk2 V c 1 t) (iblk2 V c 2 t) (ix2 p q)
    = scaledPlusBias32 (F := Ideal) (V c main_v30) (V c main_v31) (V c main_v32) (((cfg2.win 3).blk t).view.emb (ix2 p q))
  rw [out_emb, block_value]

end Blocks

/-- An index of the array is in point t's block iff each coordinate is in the block's range on its axis. -/
theorem mem_block (t : Fin cfg2.N) (i : S100000x32.Idx) :
    i ∈ ((cfg2.win 3).blk t).view.set
      ↔ ∀ a : Fin 2, win2_3.index t a * S4000x32.size a ≤ (i a).val
          ∧ (i a).val < win2_3.index t a * S4000x32.size a + S4000x32.size a := by
  show i ∈ ((View.whole main_v33).slice (win2_3.rect t)).set ↔ _
  rw [View.set_slice_whole, Rect.mem_set_unit]
  exact Iff.rfl

/-- The 25 blocks of 4000 rows cover the array: row r lies in the block of point r / 4000. -/
theorem covered (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  let t : Fin cfg2.N := ⟨(i 0).val / 4000, lt_of_lt_of_eq (by omega : (i 0).val / 4000 < 25) N_2.symm⟩
  refine ⟨t, flush2_3 t, ?_⟩
  rw [mem_block]
  obtain ⟨-, -, -, -, -, -, e6, e7⟩ := blockIndices t
  have ht : t.val = (i 0).val / 4000 := rfl
  intro a
  match a with
  | ⟨0, _⟩ =>
    show win2_3.index t (0 : Fin 2) * 4000 ≤ (i 0).val ∧ (i 0).val < win2_3.index t (0 : Fin 2) * 4000 + 4000
    omega
  | ⟨1, _⟩ =>
    show win2_3.index t (1 : Fin 2) * 32 ≤ (i 1).val ∧ (i 1).val < win2_3.index t (1 : Fin 2) * 32 + 32
    omega

end LastStage

/-- After the third launch's 25 grid points its output array is `scaledPlusBias32` of the three arrays it read. -/
theorem last_final (V : (c : Dev nD) → (b : Ref sig .tc) → Buf (Elt Ideal) ((c : Thread nD τ).loc b)) (c : Dev nD) :
    (dat2 (F := Ideal) V c).arrAt 3 cfg2.N = scaledPlusBias32 (F := Ideal) (V c main_v30) (V c main_v31) (V c main_v32) :=
  (dat2 (F := Ideal) V c).arrAt_eq_of_cover 3 _ (fun t _ => LastStage.flushed_block V c t) LastStage.covered

end Cert.Gcn

end
-- ==== Proof.KernelValue.lean ====
/-
  What the idealized kernel program leaves in its result buffer: the third launch's output array, the last stage of the
  arrays it read, which is the two layers of `Cert.Gcn` of the argument arrays, the gathers reading the source nodes as given.
-/
import proofs.«416032_j24352464569639_3_alg».proof.Proof.AfterSecondLaunch
import proofs.«416032_j24352464569639_3_alg».proof.Proof.LastStage

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)
/-! ## The result -/

/-- At the last boundary the result buffer holds the two layers of the argument arrays, the gathers reading the
    source nodes as given. -/
theorem kernel_result : W8 m ρ c (Proc.devRef .tc main_v33)
    = twoLayers (F := Ideal) (feat m c) (srcN m c) (dstN m c) (srcN m c) (wt1 m c) (bs1 m c) (wt2 m c) (bs2 m c) := by
  refine (W8_arr m ρ c 3).trans ((last_final (V7 m ρ) c).trans ?_)
  show scaledPlusBias32 (F := Ideal) (W7 m ρ c (Proc.devRef .tc main_v30)) (W7 m ρ c (Proc.devRef .tc main_v31)) (W7 m ρ c (Proc.devRef .tc main_v32)) = _
  rw [third_summed, third_inColumn, third_bias]
  unfold twoLayers
  rfl

end Cert.Gcn

end
-- ==== Proof.lean ====
/-
  A two-layer graph convolution on 100000 nodes and 1600000 edges: the kernel program computes the three dense
  stages (scale rows and multiply by a weight; finish the first layer and do the same again; scale rows and add the
  bias) in three launches of 25 row blocks each and leaves the degree counts, the gathers of the source rows and the
  sums into the destination rows to the same host operations the reference uses.

  On the extended reals both programs compute, stage by stage, the same whole-array functions (`Cert.Gcn`, Spec.lean):
  a launch's output array is its dense stage of the arrays it read, entry by entry the same sum of products as the
  reference's matrix product of the scaled rows (FirstDense, SecondDense, LastStage); the stages between are shared
  text. The programs differ in ONE index: the reference reads a negative source node from the end of the node range,
  the kernel clamps it to node 0; under the precondition's conjunct "every source node is ≥ 0" the two readings are
  the same array (SourceNodes). No law of arithmetic is used, so finiteness of the float inputs is not.

  The frames of the two kernel programs are the generated ones; the reference's is its generated run with the
  result dropped; the idealization rewrote nothing, so `preserves` is trivial.
-/
import proofs.«416032_j24352464569639_3_alg».proof.Defs
import proofs.«416032_j24352464569639_3_alg».proof.Proof.Gen.Kernel
import proofs.«416032_j24352464569639_3_alg».proof.Proof.Gen.Kernel.Frame
import proofs.«416032_j24352464569639_3_alg».proof.Proof.Gen.KernelIdeal
import proofs.«416032_j24352464569639_3_alg».proof.Proof.Gen.KernelIdeal.Frame
import proofs.«416032_j24352464569639_3_alg».proof.Proof.Gen.ReferenceIdeal
import proofs.«416032_j24352464569639_3_alg».proof.Proof.Gen.ReferenceIdeal.Run
import proofs.«416032_j24352464569639_3_alg».proof.Proof.Gen.Pre_finite_inputs
import proofs.«416032_j24352464569639_3_alg».proof.Proof.Spec
import proofs.«416032_j24352464569639_3_alg».proof.Proof.RefIsSpec
import proofs.«416032_j24352464569639_3_alg».proof.Proof.SourceNodes
import proofs.«416032_j24352464569639_3_alg».proof.Proof.KernelRun
import proofs.«416032_j24352464569639_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the two layers of the argument arrays: the kernel program's gathers read
    the source nodes as given, the reference's read them from the end where negative, and no source node is negative. -/
theorem algebraic : Cert.algebraic_KernelIdeal_ReferenceIdeal := by
  intro m ρ m' ρ' hpre hagree
  refine ⟨fun c => Cert.Gcn.twoLayers (F := Ideal) (Cert.Gcn.feat m c) (Cert.Gcn.srcN m c) (Cert.Gcn.dstN m c) (Cert.Gcn.srcN m c)
      (Cert.Gcn.wt1 m c) (Cert.Gcn.bs1 m c) (Cert.Gcn.wt2 m c) (Cert.Gcn.bs2 m c), ?_, ?_⟩
  · exact (θ_run Cert.KernelIdeal.defs _ _).mono (fun r h c => ⟨(h c).1.trans (Cert.Gcn.kernel_result m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.Gcn.reference_result, e0, e1, e2, e3, e4, e5, e6, Cert.Gcn.fromEnd_of_pre m hpre c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
